-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x20x128 : Shape := ⟨3, ![8192, 20, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x20x128 : S_.BroadcastsInDim S8192x20x128 (![] : Fin 0 → Fin S8192x20x128.rank)
  reducesTo_S8192x20x128_S_d0_1_2 : S8192x20x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S8192x128 .f32) (main_arg1 : FVec F S8192x20x128 .f32) (main_arg2 : FVec F S8192x20x128 .f32) (main_arg3 : FVec F S128x128 .f32) (main_arg4 : FVec F S128x128 .f32) (main_arg5 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x20x128 .f32 := Host.absf main_arg1
  let main_cst_0 : FVec F S_ .f32 := constant S_ .f32 0x7F800000#32
  let main_v5 : FVec F S8192x20x128 .f32 := broadcastInDim S8192x20x128 ![] bcast_S_S8192x20x128 main_cst_0
  let main_v6 : IVec S8192x20x128 1 := cmpf .olt main_v4 main_v5
  let main_c_1 : IVec S_ 1 := constantI S_ 1 1#1
  let main_v7 : IVec S_ 1 := (fun x v => Host.reduce IntOp.andi x v reducesTo_S8192x20x128_S_d0_1_2 h_S_) main_v6 main_c_1
  let main_v8 : IVec S_ 1 := andi main_v3 main_v7
  let main_v9 : FVec F S8192x20x128 .f32 := Host.absf main_arg2
  let main_cst_2 : FVec F S_ .f32 := constant S_ .f32 0x7F800000#32
  let main_v10 : FVec F S8192x20x128 .f32 := broadcastInDim S8192x20x128 ![] bcast_S_S8192x20x128 main_cst_2
  let main_v11 : IVec S8192x20x128 1 := cmpf .olt main_v9 main_v10
  let main_c_3 : IVec S_ 1 := constantI S_ 1 1#1
  let main_v12 : IVec S_ 1 := (fun x v => Host.reduce IntOp.andi x v reducesTo_S8192x20x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S8192x128 : Shape := ⟨2, ![8192, 128]⟩
abbrev S8192x20x128 : Shape := ⟨3, ![8192, 20, 128]⟩
abbrev S128x128 : Shape := ⟨2, ![128, 128]⟩
abbrev S256x128 : Shape := ⟨2, ![256, 128]⟩
abbrev S256x20x128 : Shape := ⟨3, ![256, 20, 128]⟩
abbrev S64x128 : Shape := ⟨2, ![64, 128]⟩
abbrev S64x20x128 : Shape := ⟨3, ![64, 20, 128]⟩
abbrev S64x1x128 : Shape := ⟨3, ![64, 1, 128]⟩
abbrev S64x20 : Shape := ⟨2, ![64, 20]⟩
abbrev S64x20x1 : Shape := ⟨3, ![64, 20, 1]⟩
abbrev S1280x128 : Shape := ⟨2, ![1280, 128]⟩

abbrev nBuf : Space → Nat
  | .hbm => 10
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x20x128, .f32⟩
  | .hbm, ⟨2, _⟩ => ⟨S8192x20x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .bf16⟩
  | .hbm, ⟨7, _⟩ => ⟨S128x128, .bf16⟩
  | .hbm, ⟨8, _⟩ => ⟨S128x128, .bf16⟩
  | .hbm, ⟨9, _⟩ => ⟨S8192x20x128, .f32⟩
  | .local _ .vmem, ⟨0, _⟩ => ⟨S256x128, .f32⟩
  | .local _ .vmem, ⟨1, _⟩ => ⟨S256x128, .f32⟩
  | .local _ .vmem, ⟨2, _⟩ => ⟨S256x20x128, .f32⟩
  | .local _ .vmem, ⟨3, _⟩ => ⟨S256x20x128, .f32⟩
  | .local _ .vmem, ⟨4, _⟩ => ⟨S256x20x128, .f32⟩
  | .local _ .vmem, ⟨5, _⟩ => ⟨S256x20x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S256x20x128, .f32⟩
  | .local _ .vmem, ⟨10, _⟩ => ⟨S256x20x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v7 : BitVec 32 := Scalar.muli arg8 c64_i32
  v7
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v7 : BitVec 32 := Scalar.muli arg8 c64_i32
  let v8 : BitVec 32 := v7
  let v9 : Index := Scalar.indexCast v8
  let c0_6 : Index := 0#32
  ![v9.toNat, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let c64_i32 : BitVec 32 := 64#32
  let v7 : BitVec 32 := Scalar.muli arg8 c64_i32
  let v8 : BitVec 32 := v7
  let v11 : Index := Scalar.indexCast v8
  let c0_7 : Index := 0#32
  let c0_8 : Index := 0#32
  ![v11.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x20x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x20x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x20x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S64x128 : 0 < S64x128.numel
  h_S64x20x128 : 0 < S64x20x128.numel
  shapeCasts_S64x128_S64x1x128 : S64x128.ShapeCasts S64x1x128
  broadcasts_S64x1x128_S64x20x128 : S64x1x128.Broadcasts S64x20x128
  reduces_S64x20x128_S64x20 : S64x20x128.Reduces [2] S64x20
  shapeCasts_S64x20_S64x20x1 : S64x20.ShapeCasts S64x20x1
  shapeCasts_S64x20x128_S1280x128 : S64x20x128.ShapeCasts S1280x128
  shapeCasts_S1280x128_S64x20x128 : S1280x128.ShapeCasts S64x20x128
  broadcasts_S64x20x1_S64x20x128 : S64x20x1.Broadcasts S64x20x128
  dot_S1280x128_S128x128_S1280x128_1_0_0_1_n_n_wf : DotDims.WF S1280x128 S128x128 S1280x128 [1] [0] [0] [1] [] []
  dot_S64x128_S128x128_S64x128_1_0_0_1_n_n_wf : DotDims.WF S64x128 S128x128 S64x128 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x128.size a ≤ S256x128.size a
  k0_off2_inb : ∀ k0_t1 : Fin k0_t1_loop.trips, ∀ a, (k0_off2 k0_t1) a + S64x20x128.size a ≤ S256x20x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x20x128.size a ≤ S8192x20x128.size a
  hwx0_1 : ∀ i : grid0.Coords, EltTy.bits .f32 = 32 ∨ (Rect.block (s := S8192x20x128) S256x20x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x20x128.size a ≤ S8192x20x128.size a
  hwx0_2 : ∀ i : grid0.Coords, EltTy.bits .f32 = 32 ∨ (Rect.block (s := S8192x20x128) S256x20x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x20x128.size a ≤ S8192x20x128.size a
  hwx0_6 : ∀ i : grid0.Coords, EltTy.bits .f32 = 32 ∨ (Rect.block (s := S8192x20x128) S256x20x128.size (cc0_transform_6 i) (hinb0_6 i)).WholeWords (EltTy.packing .f32)

variable [Facts₀]

def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x20x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x20x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x20x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x20x128 : Shape := ⟨3, ![8192, 20, 128]⟩
abbrev S128x128 : Shape := ⟨2, ![128, 128]⟩
abbrev S8192x1x128 : Shape := ⟨3, ![8192, 1, 128]⟩
abbrev S_ : Shape := ⟨0, ![]⟩
abbrev S8192x20 : Shape := ⟨2, ![8192, 20]⟩
abbrev S8192x20x1 : Shape := ⟨3, ![8192, 20, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x20x128, .f32⟩
  | .hbm, ⟨2, _⟩ => ⟨S8192x20x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S8192x1x128, .f32⟩
  | .hbm, ⟨7, _⟩ => ⟨S8192x20x128, .f32⟩
  | .hbm, ⟨8, _⟩ => ⟨S8192x20x128, .f32⟩
  | .hbm, ⟨9, _⟩ => ⟨S8192x20x128, .f32⟩
  | .hbm, ⟨10, _⟩ => ⟨S_, .f32⟩
  | .hbm, ⟨11, _⟩ => ⟨S8192x20, .f32⟩
  | .hbm, ⟨12, _⟩ => ⟨S8192x20, .f32⟩
  | .hbm, ⟨13, _⟩ => ⟨S8192x20, .f32⟩
  | .hbm, ⟨14, _⟩ => ⟨S_, .f32⟩
  | .hbm, ⟨15, _⟩ => ⟨S8192x20, .f32⟩
  | .hbm, ⟨16, _⟩ => ⟨S8192x20, .f32⟩
  | .hbm, ⟨17, _⟩ => ⟨S_, .f32⟩
  | .hbm, ⟨18, _⟩ => ⟨S8192x20, .f32⟩
  | .hbm, ⟨19, _⟩ => ⟨S8192x20, .f32⟩
  | .hbm, ⟨20, _⟩ => ⟨S8192x20x128, .f32⟩
  | .hbm, ⟨21, _⟩ => ⟨S8192x20x128, .f32⟩
  | .hbm, ⟨22, _⟩ => ⟨S8192x20x128, .f32⟩
  | .hbm, ⟨23, _⟩ => ⟨S8192x128, .f32⟩
  | .hbm, ⟨24, _⟩ => ⟨S8192x1x128, .f32⟩
  | .hbm, ⟨25, _⟩ => ⟨S8192x20x128, .f32⟩
  | .hbm, ⟨26, _⟩ => ⟨S8192x20x128, .f32⟩
  | .hbm, ⟨27, _⟩ => ⟨S8192x20x128, .f32⟩
  | .hbm, ⟨28, _⟩ => ⟨S8192x20x1, .f32⟩
  | .hbm, ⟨29, _⟩ => ⟨S8192x20x128, .f32⟩
  | .hbm, ⟨30, _⟩ => ⟨S8192x20x128, .f32⟩
  | .hbm, ⟨31, _⟩ => ⟨S8192x20x128, .f32⟩
  | .hbm, ⟨32, _⟩ => ⟨S8192x20x128, .f32⟩
  | .hbm, ⟨33, _⟩ => ⟨S_, .f32⟩
  | .hbm, ⟨34, _⟩ => ⟨S8192x20, .f32⟩
  | .hbm, ⟨35, _⟩ => ⟨S8192x20x1, .f32⟩
  | .hbm, ⟨36, _⟩ => ⟨S_, .f32⟩
  | .hbm, ⟨37, _⟩ => ⟨S8192x20x1, .f32⟩
  | .hbm, ⟨38, _⟩ => ⟨S8192x20x1, .f32⟩
  | .hbm, ⟨39, _⟩ => ⟨S8192x20x1, .f32⟩
  | .hbm, ⟨40, _⟩ => ⟨S8192x20x128, .f32⟩
  | .hbm, ⟨41, _⟩ => ⟨S8192x20x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S8192x128_S8192x1x128_0_2 : S8192x128.BroadcastsInDim S8192x1x128 (![0, 2] : Fin 2 → Fin S8192x1x128.rank)
  bcast_S8192x1x128_S8192x20x128_0_1_2 : S8192x1x128.BroadcastsInDim S8192x20x128 (![0, 1, 2] : Fin 3 → Fin S8192x20x128.rank)
  reducesTo_S8192x20x128_S8192x20_d2 : S8192x20x128.ReducesTo [2] S8192x20
  h_S_ : 0 < S_.numel
  bcast_S_S8192x20 : S_.BroadcastsInDim S8192x20 (![] : Fin 0 → Fin S8192x20.rank)
  bcast_S8192x20_S8192x20x1_0_1 : S8192x20.BroadcastsInDim S8192x20x1 (![0, 1] : Fin 2 → Fin S8192x20x1.rank)
  bcast_S8192x20x1_S8192x20x128_0_1_2 : S8192x20x1.BroadcastsInDim S8192x20x128 (![0, 1, 2] : Fin 3 → Fin S8192x20x128.rank)
  bcast_S_S8192x20x1 : S_.BroadcastsInDim S8192x20x1 (![] : Fin 0 → Fin S8192x20x1.rank)
  dot_S8192x20x128_S128x128_S8192x20x128_2_0_01_1_n_n_wf : DotDims.WF S8192x20x128 S128x128 S8192x20x128 [2] [0] [0, 1] [1] [] []
  dot_S8192x128_S128x128_S8192x128_1_0_0_1_n_n_wf : DotDims.WF S8192x128 S128x128 S8192x128 [1] [0] [0] [1] [] []

variable [Facts₀]

def dot_S8192x20x128_S128x128_S8192x20x128_2_0_01_1_n_n : DotDims S8192x20x128 S128x128 S8192x20x128 where
  lhsContracting := [2]
  rhsContracting := [0]
  lhsNonContracting := [0, 1]
  rhsNonContracting := [1]
  lhsBatch := []
  rhsBatch := []
  wf := dot_S8192x20x128_S128x128_S8192x20x128_2_0_01_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Cell.lean ====
/-
  One (batch, entity) row of the entity-memory cell, on the extended reals, and the one law that joins the two
  programs.

  For a row `s` of the sentence encoding, a row `p` of the previous states, a row `k` of the keys (each of width
  128) and three 128 x 128 matrices `U`, `V`, `W`:
    logit   = sum over d of s d * (p d + k d)
    cand f  = tanh (sum_j p j * U j f + sum_j k j * V j f + sum_j s j * W j f)
    upd f   = p f + logistic logit * cand f
    normSq  = sum over d of upd d * upd d
  One program scales the updated row by the reciprocal square root of `max normSq eps`; the other divides it by the
  square root of the same clamped quantity. The clamp `eps` is a positive number, so the clamped quantity is a
  positive real or plus infinity, and on both of these `x * rsqrt y = x / sqrt y` for EVERY extended real `x`: at a
  positive real `y` both are `x` times the real `(sqrt y)⁻¹`; at plus infinity both are `x * 0`. No finiteness of the
  row is needed.
-/
import Idealize.ShloMosaic.PureOps.Ideal.Laws
import Idealize.ShloMosaic.Lib.IdealHost

noncomputable section

namespace Cert.EntityCell

open Idealize.ShloMosaic
open scoped BigOperators

/-- The clamp under the square root: the value of the f32 word both programs print (about 1e-12). -/
def eps : EReal := Ideal.ofBits .f32 0x2B8CBCCC#32

/-- The clamp is positive: the word is a normal f32 with sign bit clear, `9223372 * 2^(-63)`. -/
theorem eps_pos : 0 < eps := by
  have h : eps = (((9223372 : ℝ) * (2 : ℝ) ^ (-63 : ℤ) : ℝ) : EReal) := by
    unfold eps
    simp [Ideal.ofBits, Ideal.ieee, -EReal.coe_mul] <;> norm_num
  rw [h]
  exact EReal.coe_pos.mpr (by positivity)

/-- THE LAW. At a positive `y` (a positive real, or plus infinity), scaling by the reciprocal square root is dividing
    by the square root, for every extended real `x`. -/
theorem mul_rsqrt_eq_div_sqrt (x y : EReal) (hy : 0 < y) : x * Ideal.rsqrt y = Ideal.div x (Ideal.sqrt y) := by
  induction y using EReal.rec with
  | bot => exact absurd hy (not_lt.mpr bot_le)
  | top =>
    rw [Ideal.rsqrt_top, Ideal.sqrt_top, Ideal.div, if_neg EReal.top_ne_zero, EReal.inv_top]
  | coe r =>
    have hr : 0 < r := EReal.coe_pos.mp hy
    have hs : 0 < Real.sqrt r := Real.sqrt_pos.mpr hr
    rw [Ideal.rsqrt_coe, if_neg (not_lt.mpr hr.le), if_neg hr.ne', Ideal.sqrt_coe, if_neg (not_lt.mpr hr.le), Ideal.div,
      if_neg (by exact_mod_cast hs.ne'), EReal.coe_inv]

section Row

variable (s p k : Fin 128 → EReal) (U V W : Fin 128 → Fin 128 → EReal)

/-- The gate's logit: the sentence row against the sum of the state row and the key row. -/
def logit : EReal := ∑ d : Fin 128, s d * (p d + k d)

/-- The candidate memory at feature `f`. -/
def cand (f : Fin 128) : EReal :=
  Ideal.tanh ((∑ j : Fin 128, p j * U j f) + (∑ j : Fin 128, k j * V j f) + ∑ j : Fin 128, s j * W j f)

/-- The gated update of the state row at feature `f`. -/
def upd (f : Fin 128) : EReal := p f + Ideal.logistic (logit s p k) * cand s p k U V W f

/-- The squared length of the updated row. -/
def normSq : EReal := ∑ d : Fin 128, upd s p k U V W d * upd s p k U V W d

/-- The normalized row as the kernel computes it: times the reciprocal square root of the clamped squared length. -/
def outMul (f : Fin 128) : EReal := upd s p k U V W f * Ideal.rsqrt (max (normSq s p k U V W) eps)

/-- The normalized row as the reference computes it: divided by the square root of the clamped squared length. -/
def outDiv (f : Fin 128) : EReal := Ideal.div (upd s p k U V W f) (Ideal.sqrt (max (normSq s p k U V W) eps))

/-- The two normalizations are one function: the clamped squared length is at least `eps`, which is positive. -/
theorem outMul_eq_outDiv (f : Fin 128) : outMul s p k U V W f = outDiv s p k U V W f :=
  mul_rsqrt_eq_div_sqrt _ _ (lt_of_lt_of_le eps_pos (le_max_right _ _))

end Row

/-! ## The cell over whole arrays

The same row computation laid over arrays whose leading (batch) extent is `n`: the sentence encoding `[n, 128]`, the
states and keys `[n, 20, 128]`, the three weight matrices `[128, 128]`. The extent is a parameter because the kernel
meets the computation at three sizes: a chunk of 64 batch rows inside its loop, a block of 256 per grid point, and the
whole array of 8192. -/

section Arrays

open Idealize.ShloMosaic.ValueIdx

/-- Row `r` of an `[n, 128]` array. -/
abbrev sRow {n : ℕ} (x : (⟨2, ![n, 128]⟩ : Shape).Idx → EReal) (r : Fin n) : Fin 128 → EReal := fun d => x (ix2 r d)

/-- Row `(r, e)` of an `[n, 20, 128]` array. -/
abbrev eRow {n : ℕ} (x : (⟨3, ![n, 20, 128]⟩ : Shape).Idx → EReal) (r : Fin n) (e : Fin 20) : Fin 128 → EReal :=
  fun d => x (ix3 r e d)

/-- A `[128, 128]` array as a function of its two coordinates. -/
abbrev mat (w : (⟨2, ![128, 128]⟩ : Shape).Idx → EReal) : Fin 128 → Fin 128 → EReal := fun j f => w (ix2 j f)

/-- The kernel's form of the cell, at every index of an `[n, 20, 128]` result. -/
def cellMul {n : ℕ} (enc : (⟨2, ![n, 128]⟩ : Shape).Idx → EReal) (prev keys : (⟨3, ![n, 20, 128]⟩ : Shape).Idx → EReal)
    (U V W : (⟨2, ![128, 128]⟩ : Shape).Idx → EReal) : (⟨3, ![n, 20, 128]⟩ : Shape).Idx → EReal :=
  fun i => outMul (sRow enc (i 0)) (eRow prev (i 0) (i 1)) (eRow keys (i 0) (i 1)) (mat U) (mat V) (mat W) (i 2)

/-- The reference's form of the cell, at every index of an `[n, 20, 128]` result. -/
def cellDiv {n : ℕ} (enc : (⟨2, ![n, 128]⟩ : Shape).Idx → EReal) (prev keys : (⟨3, ![n, 20, 128]⟩ : Shape).Idx → EReal)
    (U V W : (⟨2, ![128, 128]⟩ : Shape).Idx → EReal) : (⟨3, ![n, 20, 128]⟩ : Shape).Idx → EReal :=
  fun i => outDiv (sRow enc (i 0)) (eRow prev (i 0) (i 1)) (eRow keys (i 0) (i 1)) (mat U) (mat V) (mat W) (i 2)

theorem cellMul_ix3 {n : ℕ} (enc : (⟨2, ![n, 128]⟩ : Shape).Idx → EReal) (prev keys : (⟨3, ![n, 20, 128]⟩ : Shape).Idx → EReal)
    (U V W : (⟨2, ![128, 128]⟩ : Shape).Idx → EReal) (r : Fin n) (e : Fin 20) (f : Fin 128) :
    cellMul enc prev keys U V W (ix3 r e f) = outMul (sRow enc r) (eRow prev r e) (eRow keys r e) (mat U) (mat V) (mat W) f := rfl

theorem cellDiv_ix3 {n : ℕ} (enc : (⟨2, ![n, 128]⟩ : Shape).Idx → EReal) (prev keys : (⟨3, ![n, 20, 128]⟩ : Shape).Idx → EReal)
    (U V W : (⟨2, ![128, 128]⟩ : Shape).Idx → EReal) (r : Fin n) (e : Fin 20) (f : Fin 128) :
    cellDiv enc prev keys U V W (ix3 r e f) = outDiv (sRow enc r) (eRow prev r e) (eRow keys r e) (mat U) (mat V) (mat W) f := rfl

/-- The two forms are one array. -/
theorem cellMul_eq_cellDiv {n : ℕ} (enc : (⟨2, ![n, 128]⟩ : Shape).Idx → EReal)
    (prev keys : (⟨3, ![n, 20, 128]⟩ : Shape).Idx → EReal) (U V W : (⟨2, ![128, 128]⟩ : Shape).Idx → EReal) :
    cellMul enc prev keys U V W = cellDiv enc prev keys U V W :=
  funext fun _ => outMul_eq_outDiv _ _ _ _ _ _ _

/-- The cell is local to a batch row: a sub-array of `m` batch rows starting at row `off`, with weight arrays that
    read the same, has the cell of the whole array at the shifted row. -/
theorem cellMul_window {n m : ℕ} (off : ℕ)
    (enc : (⟨2, ![n, 128]⟩ : Shape).Idx → EReal) (prev keys : (⟨3, ![n, 20, 128]⟩ : Shape).Idx → EReal)
    (enc' : (⟨2, ![m, 128]⟩ : Shape).Idx → EReal) (prev' keys' : (⟨3, ![m, 20, 128]⟩ : Shape).Idx → EReal)
    (U V W U' V' W' : (⟨2, ![128, 128]⟩ : Shape).Idx → EReal) (r : Fin m) (hr : off + r.val < n)
    (he : ∀ d, enc' (ix2 r d) = enc (ix2 (⟨off + r.val, hr⟩ : Fin n) d))
    (hp : ∀ e d, prev' (ix3 r e d) = prev (ix3 (⟨off + r.val, hr⟩ : Fin n) e d))
    (hk : ∀ e d, keys' (ix3 r e d) = keys (ix3 (⟨off + r.val, hr⟩ : Fin n) e d))
    (hU : ∀ j f, U' (ix2 j f) = U (ix2 j f)) (hV : ∀ j f, V' (ix2 j f) = V (ix2 j f)) (hW : ∀ j f, W' (ix2 j f) = W (ix2 j f))
    (e : Fin 20) (f : Fin 128) :
    cellMul enc' prev' keys' U' V' W' (ix3 r e f) = cellMul enc prev keys U V W (ix3 (⟨off + r.val, hr⟩ : Fin n) e f) := by
  rw [cellMul_ix3, cellMul_ix3]
  have h1 : sRow enc' r = sRow enc ⟨off + r.val, hr⟩ := funext he
  have h2 : eRow prev' r e = eRow prev ⟨off + r.val, hr⟩ e := funext (hp e)
  have h3 : eRow keys' r e = eRow keys ⟨off + r.val, hr⟩ e := funext (hk e)
  have h4 : mat U' = mat U := funext fun j => funext fun f => hU j f
  have h5 : mat V' = mat V := funext fun j => funext fun f => hV j f
  have h6 : mat W' = mat W := funext fun j => funext fun f => hW j f
  rw [h1, h2, h3, h4, h5, h6]

end Arrays

end Cert.EntityCell

end
-- ==== Proof.LibRank3Layout.lean ====
/-
  Rank-3 layout operations read at an index, at literal-free extents: the forms a kernel meets when it keeps a reduced
  axis as a unit axis (`keepdims`), broadcasts a per-row quantity over a middle axis, or merges the two leading axes
  of a rank-3 value into one before a matrix product and splits them again after it.

  * `shapeCast_ab_a1b_apply`   an [a, b] array cast to [a, 1, b], at (r, u, d), is the operand at (r, d);
  * `broadcastTo_a1b_acb_apply` an [a, 1, b] array broadcast to [a, c, b], at (r, e, d), is the operand at (r, 0, d);
  * `shapeCast_ab_ab1_apply`   an [a, b] array cast to [a, b, 1], at (r, e, u), is the operand at (r, e);
  * `broadcastTo_ab1_abc_apply` an [a, b, 1] array broadcast to [a, b, c], at (r, e, d), is the operand at (r, e, 0);
  * `shapeCast_abc_mc_apply`   an [a, b, c] array cast to [m, c] with rows merged, at (r * b + e, d), is the operand
                               at (r, e, d);
  * `shapeCast_mc_abc_apply`   an [m, c] array cast to [a, b, c], at (r, e, d), is the operand at (r * b + e, d).
  Each is the library's `shapeCast_apply` (equal row-major positions) or `broadcastTo_apply` (trailing coordinates,
  zero on the operand's unit axes) with both indices written by coordinates.
-/
import Idealize.ShloMosaic.Lib.Pipeline.Value
import Idealize.ShloMosaic.Lib.ValueIdx

namespace Idealize.ShloMosaic.ValueIdx

open Idealize.ShloMosaic

variable {α : Type}

/-- An `[a, b]` array cast to `[a, 1, b]` reads, at `(r, u, d)`, the operand at `(r, d)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- An `[a, 1, b]` array broadcast to `[a, c, b]` reads, at `(r, e, d)`, the operand at `(r, 0, d)`: one row of
    `b` per leading coordinate, repeated over the middle axis. -/
theorem broadcastTo_a1b_acb_apply {a b c : ℕ} (x : (⟨3, ![a, 1, b]⟩ : Shape).Idx → α)
    (h : (⟨3, ![a, 1, b]⟩ : Shape).Broadcasts ⟨3, ![a, c, b]⟩) (r : Fin a) (e : Fin c) (d : Fin b) :
    broadcastTo ⟨3, ![a, c, b]⟩ x h (ix3 r e d) = x (ix3 r (0 : Fin 1) d) := by
  refine broadcastTo_apply x h (ix3 r e d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if b = 1 then 0 else d.val
    split
    · have := d.isLt; omega
    · rfl

/-- An `[a, b]` array cast to `[a, b, 1]` reads, at `(r, e, u)`, the operand at `(r, e)`: a reduction over the last
    axis that keeps it as a unit axis. -/
theorem shapeCast_ab_ab1_apply {a b : ℕ} (x : (⟨2, ![a, b]⟩ : Shape).Idx → α)
    (h : (⟨2, ![a, b]⟩ : Shape).ShapeCasts ⟨3, ![a, b, 1]⟩) (r : Fin a) (e : Fin b) (u : Fin 1) :
    shapeCast ⟨3, ![a, b, 1]⟩ x h (ix3 r e u) = x (ix2 r e) :=
  shapeCast_apply x h _ _ (by
    have hu : u.val = 0 := by omega
    rw [Shape.rowMajor_val_three, Shape.rowMajor_val_two]
    show r.val * b + e.val = (r.val * b + e.val) * 1 + u.val
    rw [hu, Nat.mul_one, Nat.add_zero])

/-- An `[a, b, 1]` array broadcast to `[a, b, c]` reads, at `(r, e, d)`, the operand at `(r, e, 0)`: a per-row
    quantity spread along the last axis. -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (e : Fin b) (d : Fin c) :
    broadcastTo ⟨3, ![a, b, c]⟩ x h (ix3 r e d) = x (ix3 r e (0 : Fin 1)) := by
  refine broadcastTo_apply x h (ix3 r e d) (ix3 r e (0 : Fin 1)) fun ax => ?_
  match ax with
  | ⟨0, _⟩ =>
    show r.val = if a = 1 then 0 else r.val
    split
    · have := r.isLt; omega
    · rfl
  | ⟨1, _⟩ =>
    show e.val = if b = 1 then 0 else e.val
    split
    · have := e.isLt; omega
    · rfl
  | ⟨2, _⟩ => rfl

/-- An `[a, b, c]` array cast to `[m, c]` (its two leading axes merged, row-major) reads, at row `r * b + e` and
    column `d`, the operand at `(r, e, d)`. -/
theorem shapeCast_abc_mc_apply {a b c m : ℕ} (x : (⟨3, ![a, b, c]⟩ : Shape).Idx → α)
    (h : (⟨3, ![a, b, c]⟩ : Shape).ShapeCasts ⟨2, ![m, c]⟩) (r : Fin a) (e : Fin b) (d : Fin c)
    (hq : r.val * b + e.val < m) :
    shapeCast ⟨2, ![m, c]⟩ x h (ix2 (⟨r.val * b + e.val, hq⟩ : Fin m) d) = x (ix3 r e d) :=
  shapeCast_apply x h _ _ (by
    rw [Shape.rowMajor_val_three, Shape.rowMajor_val_two]
    rfl)

/-- An `[m, c]` array cast to `[a, b, c]` (its rows split in two axes, row-major) reads, at `(r, e, d)`, the operand
    at row `r * b + e` and column `d`. -/
theorem shapeCast_mc_abc_apply {a b c m : ℕ} (x : (⟨2, ![m, c]⟩ : Shape).Idx → α)
    (h : (⟨2, ![m, c]⟩ : Shape).ShapeCasts ⟨3, ![a, b, c]⟩) (r : Fin a) (e : Fin b) (d : Fin c)
    (hq : r.val * b + e.val < m) :
    shapeCast ⟨3, ![a, b, c]⟩ x h (ix3 r e d) = x (ix2 (⟨r.val * b + e.val, hq⟩ : Fin m) d) :=
  shapeCast_apply x h _ _ (by
    rw [Shape.rowMajor_val_three, Shape.rowMajor_val_two]
    rfl)

end Idealize.ShloMosaic.ValueIdx
-- ==== Proof.Payload.lean ====
/-
  The chunk's arithmetic at an index. Inside its loop the kernel loads 64 batch rows of the sentence encoding
  (`v10`), of the states (`v12`) and of the keys (`v14`), and the three weight blocks (`v0`, `v2`, `v4`), and stores
  ONE value, the payload `k0_pay1`. Read at `(r, e, f)` at the ideal instance it is the cell of those loads:
    * the gate's logit is the lane sum over `d` of `v10 (r, d) * (v12 (r, e, d) + v14 (r, e, d))` (the sentence row
      cast to [64, 1, 128] and broadcast over the 20 entities);
    * each projection `states @ U`, `keys @ V` merges (r, e) into the row `r * 20 + e` of a [1280, 128] operand,
      multiplies into a zero accumulator, and splits the rows again: the sum over `j` of `x (r, e, j) * w (j, f)` (the
      change of float format before the product is the identity here);
    * the sentence projection is the sum over `j` of `v10 (r, j) * v4 (j, f)`, broadcast over the entities;
    * the squared length is the lane sum of the updated row's squares, kept as a unit axis, clamped, and its reciprocal
      square root spread along the row.
-/
import proofs.«429256_j8770323219172_3_alg».proof.Proof.Gen.KernelIdeal.Skeleton
import proofs.«429256_j8770323219172_3_alg».proof.Proof.Cell
import proofs.«429256_j8770323219172_3_alg».proof.Proof.LibRank3Layout
import Idealize.ShloMosaic.PureOps.Ideal.Laws
import Idealize.ShloMosaic.Lib.ValueIdx
import Idealize.ShloMosaic.Lib.Pipeline.Value

noncomputable section

namespace Cert.KernelIdeal.Chunk

open Cert.KernelIdeal Cert.KernelIdeal.Gen Cert.EntityCell Idealize.ShloMosaic Idealize.ShloMosaic.ValueIdx
open scoped BigOperators

/-! ## The lane sum over the last axis -/

/-- The reduced index `(r, e)` with the coordinate `d` put back on the reduced axis is `(r, e, d)`. -/
theorem lift_ix (r : Fin 64) (e : Fin 20) (d : Fin (S64x20x128.size 2)) :
    reduces_S64x20x128_S64x20.lift (ix2 r e) d = ix3 r e (d : Fin 128) :=
  funext fun a => Fin.ext (by match a with | ⟨0, _⟩ => rfl | ⟨1, _⟩ => rfl | ⟨2, _⟩ => rfl)

/-- A lane sum over the last axis of a [64, 20, 128] value, read at `(r, e)`. -/
theorem laneSum_apply (x : FVec Ideal S64x20x128 .f32) (r : Fin 64) (e : Fin 20) :
    multiReduction (F := Ideal) .add [2] S64x20 x 0x00000000#32 reduces_S64x20x128_S64x20 (.inl rfl) rfl (ix2 r e)
      = ∑ d : Fin 128, x (ix3 r e d) := by
  refine (Ideal.multiReduction_add_single x 0x00000000#32 reduces_S64x20x128_S64x20 (.inl rfl) rfl (ix2 r e)).trans ?_
  exact Finset.sum_congr rfl fun d _ => congrArg x (lift_ix r e d)

/-! ## The two matrix products -/

theorem lhs1280_0 (i : S1280x128.Idx) (q : dot_S1280x128_S128x128_S1280x128_1_0_0_1_n_n.contr.Idx) :
    (dot_S1280x128_S128x128_S1280x128_1_0_0_1_n_n.lhsIdx i q 0).val = (i 0).val := by
  unfold DotDims.lhsIdx
  rw [dif_neg (show ¬(0 : Fin S1280x128.rank) ∈ dot_S1280x128_S128x128_S1280x128_1_0_0_1_n_n.lhsBatch by decide), dif_pos (show (0 : Fin S1280x128.rank) ∈ dot_S1280x128_S128x128_S1280x128_1_0_0_1_n_n.lhsNonContracting by decide)]
  rfl
theorem lhs1280_1 (i : S1280x128.Idx) (q : dot_S1280x128_S128x128_S1280x128_1_0_0_1_n_n.contr.Idx) :
    (dot_S1280x128_S128x128_S1280x128_1_0_0_1_n_n.lhsIdx i q 1).val = (q ⟨0, by decide⟩).val :=
  dot_S1280x128_S128x128_S1280x128_1_0_0_1_n_n.lhsIdx_val_of_single rfl i q
theorem rhs1280_0 (i : S1280x128.Idx) (q : dot_S1280x128_S128x128_S1280x128_1_0_0_1_n_n.contr.Idx) :
    (dot_S1280x128_S128x128_S1280x128_1_0_0_1_n_n.rhsIdx i q 0).val = (q ⟨0, by decide⟩).val :=
  dot_S1280x128_S128x128_S1280x128_1_0_0_1_n_n.rhsIdx_val_of_single rfl i q
theorem rhs1280_1 (i : S1280x128.Idx) (q : dot_S1280x128_S128x128_S1280x128_1_0_0_1_n_n.contr.Idx) :
    (dot_S1280x128_S128x128_S1280x128_1_0_0_1_n_n.rhsIdx i q 1).val = (i 1).val := by
  unfold DotDims.rhsIdx
  rw [dif_neg (show ¬(1 : Fin S128x128.rank) ∈ dot_S1280x128_S128x128_S1280x128_1_0_0_1_n_n.rhsBatch by decide), dif_pos (show (1 : Fin S128x128.rank) ∈ dot_S1280x128_S128x128_S1280x128_1_0_0_1_n_n.rhsNonContracting by decide)]
  rfl

/-- The [1280, 128] x [128, 128] product into a zero accumulator, read at `(q, f)`: the sum over the contracted
    coordinate. -/
theorem mm1280_apply (l : FVec Ideal S1280x128 .bf16) (w : FVec Ideal S128x128 .bf16) (q : Fin 1280) (f : Fin 128) :
    matmul (F := Ideal) dot_S1280x128_S128x128_S1280x128_1_0_0_1_n_n none l w (constant S1280x128 .f32 0x00000000#32) (ix2 q f)
      = ∑ k : Fin 128, l (ix2 q k) * w (ix2 k f) := by
  refine (Ideal.matmul_constant_zero_apply dot_S1280x128_S128x128_S1280x128_1_0_0_1_n_n none l w (ix2 q f)).trans ?_
  rw [← Equiv.sum_comp (ValueIdx.contrEquiv1 dot_S1280x128_S128x128_S1280x128_1_0_0_1_n_n 128 rfl rfl).symm]
  refine Finset.sum_congr rfl fun k _ => ?_
  have hk := ValueIdx.contrEquiv1_symm_val dot_S1280x128_S128x128_S1280x128_1_0_0_1_n_n 128 rfl rfl k
  have el : dot_S1280x128_S128x128_S1280x128_1_0_0_1_n_n.lhsIdx (ix2 q f) ((ValueIdx.contrEquiv1 dot_S1280x128_S128x128_S1280x128_1_0_0_1_n_n 128 rfl rfl).symm k) = ix2 q k := funext fun a => Fin.ext (by
    match a with
    | ⟨0, _⟩ => exact lhs1280_0 _ _
    | ⟨1, _⟩ => exact (lhs1280_1 _ _).trans hk)
  have er : dot_S1280x128_S128x128_S1280x128_1_0_0_1_n_n.rhsIdx (ix2 q f) ((ValueIdx.contrEquiv1 dot_S1280x128_S128x128_S1280x128_1_0_0_1_n_n 128 rfl rfl).symm k) = ix2 k f := funext fun a => Fin.ext (by
    match a with
    | ⟨0, _⟩ => exact (rhs1280_0 _ _).trans hk
    | ⟨1, _⟩ => exact rhs1280_1 _ _)
  rw [el, er]

theorem lhs64_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs64_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs64_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs64_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The [64, 128] x [128, 128] product into a zero accumulator, read at `(r, f)`. -/
theorem mm64_apply (l : FVec Ideal S64x128 .bf16) (w : FVec Ideal S128x128 .bf16) (r : Fin 64) (f : Fin 128) :
    matmul (F := Ideal) dot_S64x128_S128x128_S64x128_1_0_0_1_n_n none l w (constant S64x128 .f32 0x00000000#32) (ix2 r f)
      = ∑ k : Fin 128, l (ix2 r k) * w (ix2 k f) := by
  refine (Ideal.matmul_constant_zero_apply dot_S64x128_S128x128_S64x128_1_0_0_1_n_n none l w (ix2 r f)).trans ?_
  rw [← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 r f) ((ValueIdx.contrEquiv1 dot_S64x128_S128x128_S64x128_1_0_0_1_n_n 128 rfl rfl).symm k) = ix2 r k := funext fun a => Fin.ext (by
    match a with
    | ⟨0, _⟩ => exact lhs64_0 _ _
    | ⟨1, _⟩ => exact (lhs64_1 _ _).trans hk)
  have er : dot_S64x128_S128x128_S64x128_1_0_0_1_n_n.rhsIdx (ix2 r f) ((ValueIdx.contrEquiv1 dot_S64x128_S128x128_S64x128_1_0_0_1_n_n 128 rfl rfl).symm k) = ix2 k f := funext fun a => Fin.ext (by
    match a with
    | ⟨0, _⟩ => exact (rhs64_0 _ _).trans hk
    | ⟨1, _⟩ => exact rhs64_1 _ _)
  rw [el, er]

/-! ## Pointwise transcendental operations at an index (definitional) -/

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl
theorem rsqrt_apply {s : Shape} {φ : FTy} (a : FVec Ideal s φ) (i : s.Idx) : rsqrt a i = Ideal.rsqrt (a i) := rfl

/-! ## The payload's named pieces -/

section Pieces

variable (v0 v2 v4 : FVec Ideal S128x128 .bf16) (v10 : FVec Ideal S64x128 .f32) (v12 v14 : FVec Ideal S64x20x128 .f32)

/-- The gate, one value per (batch row, entity), kept with a unit last axis. -/
def gateVec : FVec Ideal S64x20x1 .f32 :=
  logistic (shapeCast S64x20x1
    (multiReduction (F := Ideal) .add [2] S64x20
      (mulf (broadcastTo S64x20x128 (shapeCast S64x1x128 v10 shapeCasts_S64x128_S64x1x128) broadcasts_S64x1x128_S64x20x128) (addf v12 v14))
      0x00000000#32 reduces_S64x20x128_S64x20 (.inl rfl) rfl)
    shapeCasts_S64x20_S64x20x1)

/-- One of the two projections of a [64, 20, 128] operand by a weight block: rows merged, multiplied, split again. -/
def projVec (x : FVec Ideal S64x20x128 .f32) (w : FVec Ideal S128x128 .bf16) : FVec Ideal S64x20x128 .f32 :=
  shapeCast S64x20x128
    (matmul (F := Ideal) dot_S1280x128_S128x128_S1280x128_1_0_0_1_n_n none
      (shapeCast S1280x128 (truncf .bf16 x bitsLt_bf16_f32) shapeCasts_S64x20x128_S1280x128)
      (shapeCast S128x128 w shapeCasts_S128x128_S128x128) (constant S1280x128 .f32 0x00000000#32))
    shapeCasts_S1280x128_S64x20x128

/-- The sentence's projection, spread over the 20 entities. -/
def sentVec (w : FVec Ideal S128x128 .bf16) : FVec Ideal S64x20x128 .f32 :=
  broadcastTo S64x20x128
    (shapeCast S64x1x128
      (matmul (F := Ideal) dot_S64x128_S128x128_S64x128_1_0_0_1_n_n none (truncf .bf16 v10 bitsLt_bf16_f32)
        (shapeCast S128x128 w shapeCasts_S128x128_S128x128) (constant S64x128 .f32 0x00000000#32))
      shapeCasts_S64x128_S64x1x128)
    broadcasts_S64x1x128_S64x20x128

/-- The updated rows: the state plus the gate times the candidate. -/
def updVec : FVec Ideal S64x20x128 .f32 :=
  addf v12 (mulf (broadcastTo S64x20x128 (gateVec v10 v12 v14) broadcasts_S64x20x1_S64x20x128)
    (tanh (addf (addf (projVec v12 v0) (projVec v14 v2)) (sentVec v10 v4))))

/-- The payload is the updated rows times the spread reciprocal square root of their clamped squared lengths. -/
theorem pay_eq :
    k0_pay1 (F := Ideal) v0 v2 v4 v10 v12 v14
      = mulf (updVec v0 v2 v4 v10 v12 v14)
          (broadcastTo S64x20x128
            (rsqrt (maximumf
              (shapeCast S64x20x1
                (multiReduction (F := Ideal) .add [2] S64x20 (mulf (updVec v0 v2 v4 v10 v12 v14) (updVec v0 v2 v4 v10 v12 v14))
                  0x00000000#32 reduces_S64x20x128_S64x20 (.inl rfl) rfl)
                shapeCasts_S64x20_S64x20x1)
              (broadcast S64x20x1 (Scalar.ofBits (F := Ideal) .f32 0x2B8CBCCC#32))))
            broadcasts_S64x20x1_S64x20x128) := rfl

theorem gateB_apply (r : Fin 64) (e : Fin 20) (f : Fin 128) :
    broadcastTo S64x20x128 (gateVec v10 v12 v14) broadcasts_S64x20x1_S64x20x128 (ix3 r e f)
      = Ideal.logistic (logit (sRow v10 r) (eRow v12 r e) (eRow v14 r e)) := by
  refine (broadcastTo_ab1_abc_apply _ broadcasts_S64x20x1_S64x20x128 r e f).trans ?_
  unfold gateVec
  rw [logistic_apply]
  refine congrArg Ideal.logistic ?_
  refine (shapeCast_ab_ab1_apply _ shapeCasts_S64x20_S64x20x1 r e 0).trans ?_
  refine (laneSum_apply _ r e).trans ?_
  unfold logit
  refine Finset.sum_congr rfl fun d _ => ?_
  rw [mulf_apply, addf_apply]
  refine congrArg (· * (v12 (ix3 r e d) + v14 (ix3 r e d))) ?_
  exact (broadcastTo_a1b_acb_apply _ broadcasts_S64x1x128_S64x20x128 r e d).trans
    (shapeCast_ab_a1b_apply v10 shapeCasts_S64x128_S64x1x128 r 0 d)

theorem projVec_apply (x : FVec Ideal S64x20x128 .f32) (w : FVec Ideal S128x128 .bf16) (r : Fin 64) (e : Fin 20) (f : Fin 128) :
    projVec x w (ix3 r e f) = ∑ j : Fin 128, x (ix3 r e j) * w (ix2 j f) := by
  have hq : r.val * 20 + e.val < 1280 := by have := r.isLt; have := e.isLt; omega
  unfold projVec
  refine (shapeCast_mc_abc_apply _ shapeCasts_S1280x128_S64x20x128 r e f hq).trans ?_
  refine (mm1280_apply _ _ ⟨r.val * 20 + e.val, hq⟩ f).trans ?_
  refine Finset.sum_congr rfl fun j _ => ?_
  rw [shapeCast_self]
  refine congrArg (· * w (ix2 j f)) ?_
  exact shapeCast_abc_mc_apply (truncf .bf16 x bitsLt_bf16_f32) shapeCasts_S64x20x128_S1280x128 r e j hq

theorem sentVec_apply (w : FVec Ideal S128x128 .bf16) (r : Fin 64) (e : Fin 20) (f : Fin 128) :
    sentVec v10 w (ix3 r e f) = ∑ j : Fin 128, v10 (ix2 r j) * w (ix2 j f) := by
  unfold sentVec
  refine (broadcastTo_a1b_acb_apply _ broadcasts_S64x1x128_S64x20x128 r e f).trans ?_
  refine (shapeCast_ab_a1b_apply _ shapeCasts_S64x128_S64x1x128 r 0 f).trans ?_
  refine (mm64_apply _ _ r f).trans ?_
  rw [shapeCast_self]
  rfl

theorem updVec_apply (r : Fin 64) (e : Fin 20) (f : Fin 128) :
    updVec v0 v2 v4 v10 v12 v14 (ix3 r e f)
      = upd (sRow v10 r) (eRow v12 r e) (eRow v14 r e) (mat v0) (mat v2) (mat v4) f := by
  unfold updVec upd cand
  rw [addf_apply, mulf_apply, tanh_apply, addf_apply, addf_apply, gateB_apply, projVec_apply, projVec_apply, sentVec_apply]

/-- THE PAYLOAD AT AN INDEX: the kernel's form of the cell over the chunk's loads. -/
theorem pay_apply (r : Fin 64) (e : Fin 20) (f : Fin 128) :
    k0_pay1 (F := Ideal) v0 v2 v4 v10 v12 v14 (ix3 r e f) = cellMul v10 v12 v14 v0 v2 v4 (ix3 r e f) := by
  rw [pay_eq, cellMul_ix3, mulf_apply, updVec_apply]
  unfold outMul
  refine congrArg (upd (sRow v10 r) (eRow v12 r e) (eRow v14 r e) (mat v0) (mat v2) (mat v4) f * ·) ?_
  refine (broadcastTo_ab1_abc_apply _ broadcasts_S64x20x1_S64x20x128 r e f).trans ?_
  rw [rsqrt_apply, maximumf_apply]
  refine congrArg (fun y => Ideal.rsqrt (max y eps)) ?_
  refine (shapeCast_ab_ab1_apply _ shapeCasts_S64x20_S64x20x1 r e 0).trans ?_
  refine (laneSum_apply _ r e).trans ?_
  unfold normSq
  refine Finset.sum_congr rfl fun d _ => ?_
  rw [mulf_apply, updVec_apply]

end Pieces

end Cert.KernelIdeal.Chunk

end
-- ==== Proof.Block.lean ====
/-
  One grid point. The body walks its block of 256 batch rows in four chunks of 64: trip `k` of its loop loads rows
  `64 k … 64 k + 63` of the three streamed blocks, and stores the chunk's payload at the same rows of the output block.
  So each piece the run leaves in the output's staging buffer is, at its own rows, the cell of the WHOLE input blocks
  (the cell is local to a batch row), the four pieces tile the block, and the buffer ends holding the cell of the
  point's input blocks at every index.
-/
import proofs.«429256_j8770323219172_3_alg».proof.Proof.Gen.KernelIdeal.Frame
import proofs.«429256_j8770323219172_3_alg».proof.Proof.Payload

set_option maxRecDepth 16384

noncomputable section

namespace Cert.KernelIdeal.Block

open Cert.KernelIdeal Cert.KernelIdeal.Gen Cert.KernelIdeal.Chunk Cert.EntityCell
open Idealize.ShloMosaic Idealize.ShloMosaic.ValueIdx Idealize.SL.Sem

/-! ## One trip's piece -/

/-- Trip `k` writes ONE piece: at the trip's rows of the output block, the payload of the three loads at the trip's
    rows (the trip's definition, opened here and nowhere else). -/
theorem tripL_eq {F : FTy → Type} [FloatOps F] (𝒱 : Variants) (c : Dev nD) (bd : Option 𝒱.V) (i : grid0.Coords) (arg1 : Memref sig .tc .vmem S256x128 .f32) (harg1 : arg1.IsWhole) (arg2 : Memref sig .tc .vmem S256x20x128 .f32) (harg2 : arg2.IsWhole) (arg3 : Memref sig .tc .vmem S256x20x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x20x128 .f32) (harg7 : arg7.IsWhole)
    (v0 v2 v4 : Vec F S128x128 .bf16) (X_arg1 : BufTy.Contents (Elt F) arg1.view.ty) (X_arg2 : BufTy.Contents (Elt F) arg2.view.ty)
    (X_arg3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 v0 v2 v4 X_arg1 X_arg2 X_arg3 k
      = [(⟨Rect.unit (s := S256x20x128) (k0_off2 k) S64x20x128.size (k0_off2_inb k),
          k0_pay1 v0 v2 v4
            (arg1.view.readAt (Elt F) (Rect.unit (s := S256x128) (k0_off1 k) S64x128.size (k0_off1_inb k)).toLoadRect X_arg1)
            (arg2.view.readAt (Elt F) (Rect.unit (s := S256x20x128) (k0_off2 k) S64x20x128.size (k0_off2_inb k)).toLoadRect X_arg2)
            (arg3.view.readAt (Elt F) (Rect.unit (s := S256x20x128) (k0_off2 k) S64x20x128.size (k0_off2_inb k)).toLoadRect X_arg3)⟩ :
          View.Piece (Elt F) S256x20x128 .f32)] := by
  unfold tripL_k0_t1 trip_k0_t1
  rfl

/-- The loop has four trips. -/
theorem trips_lt (k : Fin k0_t1_loop.trips) : k.val < 4 := Nat.lt_of_lt_of_le k.isLt k0_t1_abs.2.1

/-! ## A trip's piece is a block of the cell of the point's input blocks -/

section AtIdeal

variable (x0 : Vec Ideal S256x128 .f32) (x1 x2 : Vec Ideal S256x20x128 .f32) (x3 x4 x5 : Vec Ideal S128x128 .bf16)

/-- A whole-block load of a weight block reads the block. -/
theorem ldW (x : Vec Ideal S128x128 .bf16) :
    View.ld x (Rect.unit (s := S128x128) ![0, 0] S128x128.size inb_S128x128_S128x128_0_0) = x :=
  View.ld_unit_zero (funext fun a => by match a with | ⟨0, _⟩ => rfl | ⟨1, _⟩ => rfl) _ x

/-- The payload of trip `k`'s loads of the input blocks, at a local index, is the cell of the input blocks at the
    index's place in the output block. -/
theorem tripPay_apply (k : Fin k0_t1_loop.trips)
    (y : (Rect.unit (s := S256x20x128) (k0_off2 k) S64x20x128.size (k0_off2_inb k)).shape.Idx) :
    k0_pay1 (F := Ideal) (View.ld x3 (Rect.unit (s := S128x128) ![0, 0] S128x128.size inb_S128x128_S128x128_0_0))
        (View.ld x4 (Rect.unit (s := S128x128) ![0, 0] S128x128.size inb_S128x128_S128x128_0_0))
        (View.ld x5 (Rect.unit (s := S128x128) ![0, 0] S128x128.size inb_S128x128_S128x128_0_0))
        (View.ld x0 (Rect.unit (s := S256x128) (k0_off1 k) S64x128.size (k0_off1_inb k)))
        (View.ld x1 (Rect.unit (s := S256x20x128) (k0_off2 k) S64x20x128.size (k0_off2_inb k)))
        (View.ld x2 (Rect.unit (s := S256x20x128) (k0_off2 k) S64x20x128.size (k0_off2_inb k))) y
      = cellMul x0 x1 x2 x3 x4 x5 ((Rect.unit (s := S256x20x128) (k0_off2 k) S64x20x128.size (k0_off2_inb k)).emb y) := by
  have hk := trips_lt k
  rw [ldW, ldW, ldW]
  obtain ⟨r, e, f, rfl⟩ : ∃ (r : Fin 64) (e : Fin 20) (f : Fin 128), y = ix3 r e f := ⟨y 0, y 1, y 2, eq_ix3 y⟩
  have hr : 64 * k.val + r.val < 256 := by have := r.isLt; omega
  have h2 : ∀ a, (k0_off2 k) a = (![64 * k.val, 0, 0] : Fin 3 → ℕ) a := fun a => congrFun (k0_off2_eq k) a
  have h1 : ∀ a, (k0_off1 k) a = (![64 * k.val, 0] : Fin 2 → ℕ) a := fun a => congrFun (k0_off1_eq k) a
  have hemb : (Rect.unit (s := S256x20x128) (k0_off2 k) S64x20x128.size (k0_off2_inb k)).emb (ix3 r e f)
      = ix3 (⟨64 * k.val + r.val, hr⟩ : Fin 256) e f := funext fun a => Fin.ext (by
    rw [Rect.emb_apply, Rect.off_unit, Rect.stride_unit, h2 a, Nat.one_mul]
    match a with
    | ⟨0, _⟩ => rfl
    | ⟨1, _⟩ => exact Nat.zero_add _
    | ⟨2, _⟩ => exact Nat.zero_add _)
  rw [hemb]
  refine (pay_apply _ _ _ _ _ _ r e f).trans ?_
  refine cellMul_window (64 * k.val) x0 x1 x2 _ _ _ x3 x4 x5 x3 x4 x5 r hr (fun d => ?_) (fun e' d => ?_) (fun e' d => ?_)
    (fun _ _ => rfl) (fun _ _ => rfl) (fun _ _ => rfl) e f
  · refine congrArg x0 (funext fun a => Fin.ext ?_)
    show (k0_off1 k) a + 1 * _ = _
    rw [h1 a, Nat.one_mul]
    match a with
    | ⟨0, _⟩ => rfl
    | ⟨1, _⟩ => exact Nat.zero_add _
  · refine congrArg x1 (funext fun a => Fin.ext ?_)
    show (k0_off2 k) a + 1 * _ = _
    rw [h2 a, Nat.one_mul]
    match a with
    | ⟨0, _⟩ => rfl
    | ⟨1, _⟩ => exact Nat.zero_add _
    | ⟨2, _⟩ => exact Nat.zero_add _
  · refine congrArg x2 (funext fun a => Fin.ext ?_)
    show (k0_off2 k) a + 1 * _ = _
    rw [h2 a, Nat.one_mul]
    match a with
    | ⟨0, _⟩ => rfl
    | ⟨1, _⟩ => exact Nat.zero_add _
    | ⟨2, _⟩ => exact Nat.zero_add _

end AtIdeal

/-! ## The whole run's pieces -/

/-- The run's piece list for the output: the loop's pieces over all its trips, at the weight blocks loaded before the
    loop and the streamed blocks as the memrefs hold them (the run's definition, opened here and nowhere else). -/
theorem run_pieces {F : FTy → Type} [FloatOps F] (c : Dev nD) (i : grid0.Coords) (arg1 : Memref sig .tc .vmem S256x128 .f32) (harg1 : arg1.IsWhole) (arg2 : Memref sig .tc .vmem S256x20x128 .f32) (harg2 : arg2.IsWhole) (arg3 : Memref sig .tc .vmem S256x20x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x20x128 .f32) (harg7 : arg7.IsWhole)
    (x0 : Vec F S256x128 .f32) (x1 x2 : Vec F S256x20x128 .f32) (x3 x4 x5 : Vec F S128x128 .bf16) :
    (kernelRun0_A (F := F) c i arg1 harg1 arg2 harg2 arg3 harg3 arg4 harg4 arg5 harg5 arg6 harg6 arg7 harg7 x0 x1 x2 x3 x4 x5).1
      = pb_k0_t1 (F := F) Variants.none c none i arg1 harg1 arg2 harg2 arg3 harg3 arg4 harg4 arg5 harg5 arg6 harg6 arg7 harg7
          (arg4.view.readAt (Elt F) (Rect.unit (s := S128x128) ![0, 0] S128x128.size inb_S128x128_S128x128_0_0).toLoadRect (harg4.unread x3))
          (arg5.view.readAt (Elt F) (Rect.unit (s := S128x128) ![0, 0] S128x128.size inb_S128x128_S128x128_0_0).toLoadRect (harg5.unread x4))
          (arg6.view.readAt (Elt F) (Rect.unit (s := S128x128) ![0, 0] S128x128.size inb_S128x128_S128x128_0_0).toLoadRect (harg6.unread x5))
          (harg1.unread x0) (harg2.unread x1) (harg3.unread x2) k0_t1_loop.trips := by
  unfold kernelRun0_A
  rfl

section AtIdeal

variable (x0 : Vec Ideal S256x128 .f32) (x1 x2 : Vec Ideal S256x20x128 .f32) (x3 x4 x5 : Vec Ideal S128x128 .bf16)

/-- A load, through a rectangle, of a whole memref holding `x` reads `x` at the rectangle's indices. -/
theorem readAt_unread {s : Shape} {e : EltTy} (M : Memref sig .tc .vmem s e) (h : M.IsWhole) (x : s.Idx → Elt Ideal e) (r : Rect s) :
    M.view.readAt (Elt Ideal) r.toLoadRect (h.unread x) = View.ld x r := by
  rw [View.readAt_eq_ld, h.read_unread]

/-- EVERY PIECE of the trips before `n` is, at its own indices, the cell of the point's input blocks at the piece's
    place in the output block: by induction over the trips, each trip adding its one piece. -/
theorem pb_block (c : Dev nD) (i : grid0.Coords) (arg1 : Memref sig .tc .vmem S256x128 .f32) (harg1 : arg1.IsWhole) (arg2 : Memref sig .tc .vmem S256x20x128 .f32) (harg2 : arg2.IsWhole) (arg3 : Memref sig .tc .vmem S256x20x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x20x128 .f32) (harg7 : arg7.IsWhole) (n : ℕ) :
    ∀ p ∈ pb_k0_t1 (F := Ideal) Variants.none c none i arg1 harg1 arg2 harg2 arg3 harg3 arg4 harg4 arg5 harg5 arg6 harg6 arg7 harg7
        (arg4.view.readAt (Elt Ideal) (Rect.unit (s := S128x128) ![0, 0] S128x128.size inb_S128x128_S128x128_0_0).toLoadRect (harg4.unread x3))
        (arg5.view.readAt (Elt Ideal) (Rect.unit (s := S128x128) ![0, 0] S128x128.size inb_S128x128_S128x128_0_0).toLoadRect (harg5.unread x4))
        (arg6.view.readAt (Elt Ideal) (Rect.unit (s := S128x128) ![0, 0] S128x128.size inb_S128x128_S128x128_0_0).toLoadRect (harg6.unread x5))
        (harg1.unread x0) (harg2.unread x1) (harg3.unread x2) n,
      ∀ y : p.1.shape.Idx, p.2 y = cellMul x0 x1 x2 x3 x4 x5 (p.1.emb y) := by
  induction n with
  | zero =>
    intro p hp
    rw [pb_k0_t1.eq_1] at hp
    exact absurd hp (List.not_mem_nil)
  | succ n ih =>
    intro p hp
    rw [pb_k0_t1.eq_2] at hp
    unfold pb_k0_t1Step at hp
    split at hp
    · rename_i h
      rw [tripL_eq, List.cons_append, List.nil_append] at hp
      rcases List.mem_cons.mp hp with rfl | hp'
      · intro y
        show k0_pay1 (F := Ideal) _ _ _ _ _ _ y = _
        rw [readAt_unread, readAt_unread, readAt_unread, readAt_unread, readAt_unread, readAt_unread]
        exact tripPay_apply x0 x1 x2 x3 x4 x5 ⟨n, h⟩ y
      · exact ih p hp'
    · exact ih p hp

/-- WHAT THE RUN LEAVES in the output's staging buffer: the cell of the point's input blocks, at every index of the
    block (the pieces cover the block, and each is a block of that one function). -/
theorem out0_eq (c : Dev nD) (i : grid0.Coords) (arg1 : Memref sig .tc .vmem S256x128 .f32) (harg1 : arg1.IsWhole) (arg2 : Memref sig .tc .vmem S256x20x128 .f32) (harg2 : arg2.IsWhole) (arg3 : Memref sig .tc .vmem S256x20x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x20x128 .f32) (harg7 : arg7.IsWhole) :
    out0_A_6 (F := Ideal) c i arg1 harg1 arg2 harg2 arg3 harg3 arg4 harg4 arg5 harg5 arg6 harg6 arg7 harg7 x0 x1 x2 x3 x4 x5 = cellMul x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces (cellMul x0 x1 x2 x3 x4 x5) _ ?_ y (cover0_A_6 c i arg1 harg1 arg2 harg2 arg3 harg3 arg4 harg4 arg5 harg5 arg6 harg6 arg7 harg7 x0 x1 x2 x3 x4 x5 y)
  rw [run_pieces]
  exact pb_block x0 x1 x2 x3 x4 x5 c i arg1 harg1 arg2 harg2 arg3 harg3 arg4 harg4 arg5 harg5 arg6 harg6 arg7 harg7 _

end AtIdeal

end Cert.KernelIdeal.Block

end
-- ==== Proof.Whole.lean ====
/-
  The whole result array. Grid point `t` stages rows `256 t … 256 t + 255` of the three streamed arrays and the three
  weight arrays whole (converted on the host to a narrower float format, which is the identity at the ideal instance),
  and writes back what its body left: the cell of its input blocks, which is the cell of the WHOLE arrays at the block's
  rows. The 32 blocks tile the result (the point that covers batch row `b` is `b / 256`), so the result array ends holding
  the cell of the argument arrays at every index.
-/
import proofs.«429256_j8770323219172_3_alg».proof.Proof.Gen.KernelIdeal.Value
import proofs.«429256_j8770323219172_3_alg».proof.Proof.Block
import Idealize.ShloMosaic.Lib.StableHlo.Run

set_option maxRecDepth 16384

noncomputable section

namespace Cert.KernelIdeal.Whole

open Cert.KernelIdeal Cert.KernelIdeal.Gen Cert.KernelIdeal.Block Cert.EntityCell
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The weight arrays as the region finds them -/

/-- The host's change of float format is the identity: the region finds `U` as launched. -/
theorem V_main_v0 (c : Dev nD) : (V m c main_v0 : S128x128.Idx → EReal) = (m ((c : Thread nD τ).loc main_arg3)) := by
  dsimp only [V, hostOps0]; after_results; rfl
/-- Likewise `V`. -/
theorem V_main_v1 (c : Dev nD) : (V m c main_v1 : S128x128.Idx → EReal) = (m ((c : Thread nD τ).loc main_arg4)) := by
  dsimp only [V, hostOps0]; after_results; rfl
/-- Likewise `W`. -/
theorem V_main_v2 (c : Dev nD) : (V m c main_v2 : S128x128.Idx → EReal) = (m ((c : Thread nD τ).loc main_arg5)) := by
  dsimp only [V, hostOps0]; after_results; rfl

/-! ## The result -/

/-- The result array: the kernel's form of the cell over the argument arrays as launched. -/
def result (c : Dev nD) : S8192x20x128.Idx → EReal :=
  cellMul (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The printed index maps over the grid: the three streamed windows and the output move with the point along the batch
    axis; the weight windows stay at the origin. -/
theorem idx_facts : ∀ t : Fin cfg0.N,
    win0_6.index t (0 : Fin 3) = t.val ∧ win0_6.index t (1 : Fin 3) = 0 ∧ win0_6.index t (2 : Fin 3) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- WHAT POINT `t` WRITES BACK is block `t` of the result. -/
theorem flushed_eq (c : Dev nD) (t : Fin cfg0.N) :
    (dats m 0 c).flushed 6 t = ((cfg0.win 6).blk t).view.read (Elt Ideal) (result m c) := by
  rw [Value.flushed6_A, out0_eq]
  obtain ⟨f60, f61, f62, f00, f01, f10, f11, f12, f20, f21, f22, f30, f31, f40, f41, f50, f51⟩ := idx_facts t
  funext j
  obtain ⟨r, e, f, rfl⟩ : ∃ (r : Fin 256) (e : Fin 20) (f : Fin 128), j = ix3 r e f := ⟨j 0, j 1, j 2, eq_ix3 j⟩
  have ht : t.val < 32 := t.isLt
  have hr : 256 * t.val + r.val < 8192 := by have := r.isLt; omega
  show cellMul (iblk m c 0 t) (iblk m c 1 t) (iblk m c 2 t) (iblk m c 3 t) (iblk m c 4 t) (iblk m c 5 t) (ix3 r e f)
     = result m c (((cfg0.win 6).blk t).view.emb (ix3 r e f))
  have hemb : ((cfg0.win 6).blk t).view.emb (ix3 r e f) = ix3 (⟨256 * t.val + r.val, hr⟩ : Fin 8192) e f := by
    funext a; apply Fin.ext
    match a with
    | ⟨0, _⟩ => show win0_6.index t (0 : Fin 3) * 256 + 1 * r.val = 256 * t.val + r.val; omega
    | ⟨1, _⟩ => show win0_6.index t (1 : Fin 3) * 20 + 1 * e.val = e.val; omega
    | ⟨2, _⟩ => show win0_6.index t (2 : Fin 3) * 128 + 1 * f.val = f.val; omega
  rw [hemb]
  unfold result
  refine cellMul_window (256 * t.val) _ _ _ _ _ _ _ _ _ _ _ _ r hr (fun d => ?_) (fun e' d => ?_) (fun e' d => ?_)
    (fun j' f' => ?_) (fun j' f' => ?_) (fun j' f' => ?_) e f
  · show V m c main_arg0 (((cfg0.win 0).blk t).view.emb (ix2 r d)) = _
    rw [V_main_arg0]
    refine congrArg (m ((c : Thread nD τ).loc main_arg0)) (funext fun a => Fin.ext ?_)
    match a with
    | ⟨0, _⟩ => show win0_0.index t (0 : Fin 2) * 256 + 1 * r.val = 256 * t.val + r.val; omega
    | ⟨1, _⟩ => show win0_0.index t (1 : Fin 2) * 128 + 1 * d.val = d.val; omega
  · show V m c main_arg1 (((cfg0.win 1).blk t).view.emb (ix3 r e' d)) = _
    rw [V_main_arg1]
    refine congrArg (m ((c : Thread nD τ).loc main_arg1)) (funext fun a => Fin.ext ?_)
    match a with
    | ⟨0, _⟩ => show win0_1.index t (0 : Fin 3) * 256 + 1 * r.val = 256 * t.val + r.val; omega
    | ⟨1, _⟩ => show win0_1.index t (1 : Fin 3) * 20 + 1 * e'.val = e'.val; omega
    | ⟨2, _⟩ => show win0_1.index t (2 : Fin 3) * 128 + 1 * d.val = d.val; omega
  · show V m c main_arg2 (((cfg0.win 2).blk t).view.emb (ix3 r e' d)) = _
    rw [V_main_arg2]
    refine congrArg (m ((c : Thread nD τ).loc main_arg2)) (funext fun a => Fin.ext ?_)
    match a with
    | ⟨0, _⟩ => show win0_2.index t (0 : Fin 3) * 256 + 1 * r.val = 256 * t.val + r.val; omega
    | ⟨1, _⟩ => show win0_2.index t (1 : Fin 3) * 20 + 1 * e'.val = e'.val; omega
    | ⟨2, _⟩ => show win0_2.index t (2 : Fin 3) * 128 + 1 * d.val = d.val; omega
  · show (V m c main_v0 : S128x128.Idx → EReal) (((cfg0.win 3).blk t).view.emb (ix2 j' f')) = _
    rw [V_main_v0]
    refine congrArg (m ((c : Thread nD τ).loc main_arg3)) (funext fun a => Fin.ext ?_)
    match a with
    | ⟨0, _⟩ => show win0_3.index t (0 : Fin 2) * 128 + 1 * j'.val = j'.val; omega
    | ⟨1, _⟩ => show win0_3.index t (1 : Fin 2) * 128 + 1 * f'.val = f'.val; omega
  · show (V m c main_v1 : S128x128.Idx → EReal) (((cfg0.win 4).blk t).view.emb (ix2 j' f')) = _
    rw [V_main_v1]
    refine congrArg (m ((c : Thread nD τ).loc main_arg4)) (funext fun a => Fin.ext ?_)
    match a with
    | ⟨0, _⟩ => show win0_4.index t (0 : Fin 2) * 128 + 1 * j'.val = j'.val; omega
    | ⟨1, _⟩ => show win0_4.index t (1 : Fin 2) * 128 + 1 * f'.val = f'.val; omega
  · show (V m c main_v2 : S128x128.Idx → EReal) (((cfg0.win 5).blk t).view.emb (ix2 j' f')) = _
    rw [V_main_v2]
    refine congrArg (m ((c : Thread nD τ).loc main_arg5)) (funext fun a => Fin.ext ?_)
    match a with
    | ⟨0, _⟩ => show win0_5.index t (0 : Fin 2) * 128 + 1 * j'.val = j'.val; omega
    | ⟨1, _⟩ => show win0_5.index t (1 : Fin 2) * 128 + 1 * f'.val = f'.val; omega

/-- An index of the result is in point `t`'s block iff each coordinate is in the block's range on its axis. -/
theorem mem_blk (t : Fin cfg0.N) (i : S8192x20x128.Idx) :
    i ∈ ((cfg0.win 6).blk t).view.set ↔ ∀ a : Fin 3, win0_6.index t a * S256x20x128.size a ≤ (i a).val
      ∧ (i a).val < win0_6.index t a * S256x20x128.size a + S256x20x128.size a := by
  show i ∈ ((View.whole main_v3).slice (win0_6.rect t)).set ↔ _
  rw [View.set_slice_whole, Rect.mem_set_unit]
  exact Iff.rfl

/-- The blocks tile the result: batch row `b` is in the block of point `b / 256`. -/
theorem cover (i : S8192x20x128.Idx) :
    ∃ t : Fin cfg0.N, (cfg0.win 6).flush t = true ∧ i ∈ ((cfg0.win 6).blk t).view.set := by
  have h0 : (i 0).val < 8192 := (i 0).isLt
  have h1 : (i 1).val < 20 := (i 1).isLt
  have h2 : (i 2).val < 128 := (i 2).isLt
  have hq : (i 0).val / 256 < 32 := by omega
  obtain ⟨f60, f61, f62, -⟩ := idx_facts ⟨(i 0).val / 256, hq⟩
  refine ⟨⟨(i 0).val / 256, hq⟩, flush0_6 _, ?_⟩
  rw [mem_blk]
  intro a
  match a with
  | ⟨0, _⟩ =>
    show win0_6.index ⟨(i 0).val / 256, hq⟩ (0 : Fin 3) * 256 ≤ (i 0).val
      ∧ (i 0).val < win0_6.index ⟨(i 0).val / 256, hq⟩ (0 : Fin 3) * 256 + 256
    rw [f60]; show (i 0).val / 256 * 256 ≤ _ ∧ _ < (i 0).val / 256 * 256 + 256; omega
  | ⟨1, _⟩ =>
    show win0_6.index ⟨(i 0).val / 256, hq⟩ (1 : Fin 3) * 20 ≤ (i 1).val
      ∧ (i 1).val < win0_6.index ⟨(i 0).val / 256, hq⟩ (1 : Fin 3) * 20 + 20
    omega
  | ⟨2, _⟩ =>
    show win0_6.index ⟨(i 0).val / 256, hq⟩ (2 : Fin 3) * 128 ≤ (i 2).val
      ∧ (i 2).val < win0_6.index ⟨(i 0).val / 256, hq⟩ (2 : Fin 3) * 128 + 128
    omega

/-- THE RESULT ARRAY after the run. -/
theorem final (c : Dev nD) : (dats m 0 c).arrAt 6 cfg0.N = result m c :=
  (dats m 0 c).arrAt_eq_of_cover 6 (result m c) (fun t _ => flushed_eq m c t) cover

/-- The kernel's run: the result array at the cell of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The reference, stage by stage. Its last stage (the quotient by the broadcast square root) read at `(b, e, f)` is the
  dividing form of the cell over the argument arrays: the gate is `1 / (1 + exp (-logit))`, which is the logistic
  function by definition at the ideal instance (the constant word of `1.0` is the real one); the three products are the
  sums over the contracted coordinate; each host sum starts from the zero word, which is zero; the broadcasts read
  their operand at the coordinates they keep.
-/
import proofs.«429256_j8770323219172_3_alg».proof.Proof.Gen.ReferenceIdeal.Read
import proofs.«429256_j8770323219172_3_alg».proof.Proof.Cell
import Idealize.ShloMosaic.Lib.IdealHost

noncomputable section

namespace Cert.ReferenceIdeal.RefValue

open Cert.ReferenceIdeal Cert.ReferenceIdeal.Read Cert.EntityCell Idealize.ShloMosaic Idealize.ShloMosaic.ValueIdx
open scoped BigOperators

variable (x0 : (⟨S8192x128, .f32⟩ : BufTy).Contents (Elt Ideal)) (x1 x2 : (⟨S8192x20x128, .f32⟩ : BufTy).Contents (Elt Ideal)) (x3 x4 x5 : (⟨S128x128, .f32⟩ : BufTy).Contents (Elt Ideal))

/-- The gate's logit: the host sum over the last axis of the broadcast sentence row times the sum of state and key. -/
theorem logit_apply (b : Fin 8192) (e : Fin 20) :
    val_main_v4 (F := Ideal) x0 x1 x2 (ix2 b e) = logit (sRow x0 b) (eRow x1 b e) (eRow x2 b e) := by
  rw [val_main_v4_apply, val_main_cst_apply]
  show Ideal.ofBits .f32 0x00000000#32 + _ = _
  rw [Ideal.ofBits_zero_f32, zero_add]
  unfold logit
  refine Finset.sum_congr rfl fun d _ => ?_
  have i1 : idx_main_v4 (ix2 b e) d = ix3 b e d :=
    funext fun a => Fin.ext (by match a with | ⟨0, _⟩ => rfl | ⟨1, _⟩ => rfl | ⟨2, _⟩ => rfl)
  have i0 : idx_main_v0 (idx_main_v2 (ix3 b e d)) = ix2 b d :=
    funext fun a => Fin.ext (by match a with | ⟨0, _⟩ => rfl | ⟨1, _⟩ => rfl)
  rw [i1, val_main_v3_apply, val_main_v2_apply, val_main_v0_apply, val_main_v1_apply, i0]
  rfl

/-- The gate: one over one plus the exponential of minus the logit. -/
theorem gate_apply (b : Fin 8192) (e : Fin 20) :
    val_main_v10 (F := Ideal) x0 x1 x2 (ix2 b e) = Ideal.logistic (logit (sRow x0 b) (eRow x1 b e) (eRow x2 b e)) := by
  rw [val_main_v10_apply, val_main_v9_apply, val_main_cst_1_apply, val_main_v8_apply, val_main_v7_apply,
    val_main_cst_0_apply, val_main_v6_apply, val_main_v5_apply, logit_apply]
  show Ideal.div (Ideal.ofBits .f32 0x3F800000#32) (Ideal.ofBits .f32 0x3F800000#32 + Ideal.exp (-_)) = _
  rw [Ideal.ofBits_one_f32]
  rfl

/-- The candidate memory: the hyperbolic tangent of the three products' sum. -/
theorem cand_apply (b : Fin 8192) (e : Fin 20) (f : Fin 128) :
    val_main_v18 (F := Ideal) x0 x1 x2 x3 x4 x5 (ix3 b e f)
      = cand (sRow x0 b) (eRow x1 b e) (eRow x2 b e) (mat x3) (mat x4) (mat x5) f := by
  have l11 : ∀ k, lidx_main_v11 (ix3 b e f) k = ix3 b e k := fun k =>
    funext fun a => Fin.ext (by match a with | ⟨0, _⟩ => rfl | ⟨1, _⟩ => rfl | ⟨2, _⟩ => rfl)
  have r11 : ∀ k, ridx_main_v11 (ix3 b e f) k = ix2 k f := fun k =>
    funext fun a => Fin.ext (by match a with | ⟨0, _⟩ => rfl | ⟨1, _⟩ => rfl)
  have l12 : ∀ k, lidx_main_v12 (ix3 b e f) k = ix3 b e k := fun k =>
    funext fun a => Fin.ext (by match a with | ⟨0, _⟩ => rfl | ⟨1, _⟩ => rfl | ⟨2, _⟩ => rfl)
  have r12 : ∀ k, ridx_main_v12 (ix3 b e f) k = ix2 k f := fun k =>
    funext fun a => Fin.ext (by match a with | ⟨0, _⟩ => rfl | ⟨1, _⟩ => rfl)
  have l14 : ∀ k, lidx_main_v14 (idx_main_v15 (idx_main_v16 (ix3 b e f))) k = ix2 b k := fun k =>
    funext fun a => Fin.ext (by match a with | ⟨0, _⟩ => rfl | ⟨1, _⟩ => rfl)
  have r14 : ∀ k, ridx_main_v14 (idx_main_v15 (idx_main_v16 (ix3 b e f))) k = ix2 k f := fun k =>
    funext fun a => Fin.ext (by match a with | ⟨0, _⟩ => rfl | ⟨1, _⟩ => rfl)
  rw [val_main_v18_apply, val_main_v17_apply, val_main_v13_apply, val_main_v11_apply, val_main_v12_apply,
    val_main_v16_apply, val_main_v15_apply, val_main_v14_apply]
  simp only [l11, r11, l12, r12, l14, r14]
  rfl

/-- The gated update of the state row. -/
theorem upd_apply (b : Fin 8192) (e : Fin 20) (f : Fin 128) :
    val_main_v22 (F := Ideal) x0 x1 x2 x3 x4 x5 (ix3 b e f)
      = upd (sRow x0 b) (eRow x1 b e) (eRow x2 b e) (mat x3) (mat x4) (mat x5) f := by
  have ig : idx_main_v19 (idx_main_v20 (ix3 b e f)) = ix2 b e :=
    funext fun a => Fin.ext (by match a with | ⟨0, _⟩ => rfl | ⟨1, _⟩ => rfl)
  rw [val_main_v22_apply, val_main_v21_apply, val_main_v20_apply, val_main_v19_apply, ig, gate_apply, cand_apply]
  rfl

/-- The squared length of the updated row. -/
theorem normSq_apply (b : Fin 8192) (e : Fin 20) :
    val_main_v24 (F := Ideal) x0 x1 x2 x3 x4 x5 (ix2 b e)
      = normSq (sRow x0 b) (eRow x1 b e) (eRow x2 b e) (mat x3) (mat x4) (mat x5) := by
  rw [val_main_v24_apply, val_main_cst_2_apply]
  show Ideal.ofBits .f32 0x00000000#32 + _ = _
  rw [Ideal.ofBits_zero_f32, zero_add]
  unfold normSq
  refine Finset.sum_congr rfl fun d _ => ?_
  have i1 : idx_main_v24 (ix2 b e) d = ix3 b e d :=
    funext fun a => Fin.ext (by match a with | ⟨0, _⟩ => rfl | ⟨1, _⟩ => rfl | ⟨2, _⟩ => rfl)
  rw [i1, val_main_v23_apply, upd_apply]
  rfl

/-- THE REFERENCE'S RESULT is the dividing form of the cell over the argument arrays. -/
theorem result_eq : val_main_v30 (F := Ideal) x0 x1 x2 x3 x4 x5 = cellDiv x0 x1 x2 x3 x4 x5 := by
  funext i
  obtain ⟨b, e, f, rfl⟩ : ∃ (b : Fin 8192) (e : Fin 20) (f : Fin 128), i = ix3 b e f := ⟨i 0, i 1, i 2, eq_ix3 i⟩
  have ig : idx_main_v25 (idx_main_v29 (ix3 b e f)) = ix2 b e :=
    funext fun a => Fin.ext (by match a with | ⟨0, _⟩ => rfl | ⟨1, _⟩ => rfl)
  rw [cellDiv_ix3, val_main_v30_apply, val_main_v29_apply, val_main_v28_apply, val_main_v27_apply, val_main_v26_apply,
    val_main_cst_3_apply, val_main_v25_apply, ig, upd_apply, normSq_apply]
  rfl

end Cert.ReferenceIdeal.RefValue

end
-- ==== Proof.lean ====
/-
  The entity-memory cell: a gated update of 20 state rows per batch element, then an L2 normalization of each row.

  For every batch row `b`, entity `e` and feature `f`, with `s` the sentence row of `b`, `p` and `k` the state and key
  rows of `(b, e)`:
      upd f = p f + logistic (sum_d s d * (p d + k d)) * tanh (sum_j p j * U j f + sum_j k j * V j f + sum_j s j * W j f)
  and the result is `upd f` normalized by the row's length clamped below: the kernel multiplies by the reciprocal
  square root of `max (sum_d upd d ^ 2) eps`, the reference divides by the square root of the same quantity.

  At the ideal instance the two programs compute the same `upd`: a change of float format is the identity; a matrix
  product into a zero accumulator and the host's `dot_general` are the same sum, whatever the tiling (the kernel merges
  batch row and entity into one row axis of 1280 before its products, per chunk of 64 batch rows, per block of 256); a
  lane sum and the host's sum from zero are the same sum; and the reference's `1 / (1 + exp (-x))` is the logistic
  function by definition. The last step is the one algebraic law (Proof/Cell.lean): the clamp `eps` is a positive
  real, so the clamped squared length is a positive real or plus infinity, and there `x * rsqrt y = x / sqrt y` for
  every extended real `x`. The precondition (finite inputs) is therefore not used by the value claim.

  Proof/Payload.lean reads the kernel body's one stored value at an index; Proof/Block.lean collects the four chunks a
  grid point stores into the cell of the point's input blocks; Proof/Whole.lean collects the 32 blocks into the cell of
  the argument arrays; Proof/RefValue.lean reads the reference's last stage as the dividing form of the same cell.
  Both idealized programs' frames and the word-level kernel's are the generated frame certificates; the idealization
  rewrote no operation, so there is nothing to preserve.
-/
import proofs.«429256_j8770323219172_3_alg».proof.Defs
import proofs.«429256_j8770323219172_3_alg».proof.Proof.Gen.Kernel
import proofs.«429256_j8770323219172_3_alg».proof.Proof.Gen.Kernel.Frame
import proofs.«429256_j8770323219172_3_alg».proof.Proof.Gen.KernelIdeal
import proofs.«429256_j8770323219172_3_alg».proof.Proof.Gen.KernelIdeal.Frame
import proofs.«429256_j8770323219172_3_alg».proof.Proof.Gen.KernelIdeal.Value
import proofs.«429256_j8770323219172_3_alg».proof.Proof.Gen.ReferenceIdeal
import proofs.«429256_j8770323219172_3_alg».proof.Proof.Gen.ReferenceIdeal.Run
import proofs.«429256_j8770323219172_3_alg».proof.Proof.Gen.ReferenceIdeal.Read
import proofs.«429256_j8770323219172_3_alg».proof.Proof.Gen.Pre_finite_inputs
import proofs.«429256_j8770323219172_3_alg».proof.Proof.Whole
import proofs.«429256_j8770323219172_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result array at the cell of the
    arguments: the kernel's in the multiplying form, the reference's in the dividing form, which are one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v30_eq, Cert.ReferenceIdeal.RefValue.result_eq,
    ← Cert.EntityCell.cellMul_eq_cellDiv, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
